-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16x2048x1024 .f32) (main_arg1 : FVec F S16x2048x1024 .f32) (main_arg2 : FVec F S1024x1024 .f32) (main_arg3 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16x2048x1024 : Shape := ⟨3, ![16, 2048, 1024]⟩
abbrev S1024x1024 : Shape := ⟨2, ![1024, 1024]⟩
abbrev S1024 : Shape := ⟨1, ![1024]⟩
abbrev S1x1024 : Shape := ⟨2, ![1, 1024]⟩
abbrev S1x2048x1024 : Shape := ⟨3, ![1, 2048, 1024]⟩
abbrev S1x256x1024 : Shape := ⟨3, ![1, 256, 1024]⟩
abbrev S2048x1024 : Shape := ⟨2, ![2048, 1024]⟩
abbrev S512x1024 : Shape := ⟨2, ![512, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S16x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x256x1024, .f32⟩
  | .local _ .vmem, ⟨3, _⟩ => ⟨S1x256x1024, .f32⟩
  | .local _ .vmem, ⟨4, _⟩ => ⟨S1024x1024, .bf16⟩
  | .local _ .vmem, ⟨5, _⟩ => ⟨S1x1024, .f32⟩
  | .local _ .vmem, ⟨6, _⟩ => ⟨S1x256x1024, .f32⟩
  | .local _ .vmem, ⟨7, _⟩ => ⟨S1x256x1024, .f32⟩
  | .local _ .vmem, ⟨8, _⟩ => ⟨S2048x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_mult1 : BitVec 32 :=
  let c0_i32_18 : BitVec 32 := 0#32
  let c512_i32 : BitVec 32 := 512#32
  let v32 : BitVec 32 := Scalar.muli c0_i32_18 c512_i32
  v32
def k0_off1 (c0_i32_18 : BitVec 32) : Fin 2 → Nat :=
  let c512_i32 : BitVec 32 := 512#32
  let v32 : BitVec 32 := Scalar.muli c0_i32_18 c512_i32
  let v33 : BitVec 32 := v32
  let v36 : Index := Scalar.indexCast v33
  let c0_21 : Index := 0#32
  ![v36.toNat, 0]
def k0_mult2 : BitVec 32 :=
  let c1_i32 : BitVec 32 := 1#32
  let c512_i32_25 : BitVec 32 := 512#32
  let v49 : BitVec 32 := Scalar.muli c1_i32 c512_i32_25
  v49
def k0_mult3 : BitVec 32 :=
  let c2_i32 : BitVec 32 := 2#32
  let c512_i32_32 : BitVec 32 := 512#32
  let v66 : BitVec 32 := Scalar.muli c2_i32 c512_i32_32
  v66
def k0_mult4 : BitVec 32 :=
  let c3_i32 : BitVec 32 := 3#32
  let c512_i32_39 : BitVec 32 := 512#32
  let v83 : BitVec 32 := Scalar.muli c3_i32 c512_i32_39
  v83
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x2048x1024_S1x2048x1024_0_0_0 : ∀ a, (![0, 0, 0] : Fin 3 → Nat) a + S1x2048x1024.size a ≤ S1x2048x1024.size a
  squeezes_S1x2048x1024_S2048x1024 : S1x2048x1024.Squeezes S2048x1024
  h_S512x1024 : 0 < S512x1024.numel
  broadcasts_S1x1024_S512x1024 : S1x1024.Broadcasts S512x1024
  shapeCasts_S512x1024_S512x1024 : S512x1024.ShapeCasts S512x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x1024_S256x1024 : S1x1024.Broadcasts S256x1024
  inb_S2048x1024_S2048x1024_0_0 : ∀ a, (![0, 0] : Fin 2 → Nat) a + S2048x1024.size a ≤ S2048x1024.size a
  h_S2048x1024 : 0 < S2048x1024.numel
  reduces_S256x2048_S256 : S256x2048.Reduces [1] S256
  shapeCasts_S256_S256x1 : S256.ShapeCasts S256x1
  broadcasts_S256x1_S256x2048 : S256x1.Broadcasts S256x2048
  broadcasts_S256x1_S256x1024 : S256x1.Broadcasts S256x1024
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  k0_mult1_dvd : ∀ i : grid0.Coords, ∀ (k0_h1 : k0_cond1 i = 1#1), 512 ∣ k0_mult1.toNat
  k0_off1_inb : ∀ i : grid0.Coords, ∀ (k0_h1 : k0_cond1 i = 1#1), ∀ (r : Fin 4), ∀ a, (k0_off1 (BitVec.ofNat 32 r.val)) a + S512x1024.size a ≤ S2048x1024.size a
  k0_off1_packedbf16 : ∀ i : grid0.Coords, ∀ (k0_h1 : k0_cond1 i = 1#1), ∀ (r : Fin 4), (Rect.unit (s := S2048x1024) (k0_off1 (BitVec.ofNat 32 r.val)) S512x1024.size (k0_off1_inb i k0_h1 r)).PackedRows (EltTy.packing .bf16)
  k0_mult2_dvd : ∀ i : grid0.Coords, ∀ (k0_h1 : k0_cond1 i = 1#1), 512 ∣ k0_mult2.toNat
  k0_mult3_dvd : ∀ i : grid0.Coords, ∀ (k0_h1 : k0_cond1 i = 1#1), 512 ∣ k0_mult3.toNat
  k0_mult4_dvd : ∀ i : grid0.Coords, ∀ (k0_h1 : k0_cond1 i = 1#1), 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S16x2048x1024.size a
  hwx0_0 : ∀ i : grid0.Coords, EltTy.bits .f32 = 32 ∨ (Rect.block (s := S16x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S16x2048x1024.size a
  hwx0_1 : ∀ i : grid0.Coords, EltTy.bits .f32 = 32 ∨ (Rect.block (s := S16x2048x1024) S1x256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S16x2048x1024.size a
  hwx0_4 : ∀ i : grid0.Coords, EltTy.bits .f32 = 32 ∨ (Rect.block (s := S16x2048x1024) S1x256x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S16x2048x2048 : Shape := ⟨3, ![16, 2048, 2048]⟩
abbrev S16x2048 : Shape := ⟨2, ![16, 2048]⟩
abbrev S16x2048x1 : Shape := ⟨3, ![16, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S16x2048x1024, .f32⟩
  | .hbm, ⟨5, _⟩ => ⟨S1x1x1024, .f32⟩
  | .hbm, ⟨6, _⟩ => ⟨S16x2048x1024, .f32⟩
  | .hbm, ⟨7, _⟩ => ⟨S16x2048x1024, .f32⟩
  | .hbm, ⟨8, _⟩ => ⟨S_, .f32⟩
  | .hbm, ⟨9, _⟩ => ⟨S16x2048x1024, .f32⟩
  | .hbm, ⟨10, _⟩ => ⟨S16x2048x1024, .f32⟩
  | .hbm, ⟨11, _⟩ => ⟨S16x2048x1024, .f32⟩
  | .hbm, ⟨12, _⟩ => ⟨S1x1x1024, .f32⟩
  | .hbm, ⟨13, _⟩ => ⟨S16x2048x1024, .f32⟩
  | .hbm, ⟨14, _⟩ => ⟨S16x2048x1024, .f32⟩
  | .hbm, ⟨15, _⟩ => ⟨S_, .f32⟩
  | .hbm, ⟨16, _⟩ => ⟨S16x2048x1024, .f32⟩
  | .hbm, ⟨17, _⟩ => ⟨S16x2048x1024, .f32⟩
  | .hbm, ⟨18, _⟩ => ⟨S16x2048x2048, .f32⟩
  | .hbm, ⟨19, _⟩ => ⟨S_, .f32⟩
  | .hbm, ⟨20, _⟩ => ⟨S16x2048, .f32⟩
  | .hbm, ⟨21, _⟩ => ⟨S_, .f32⟩
  | .hbm, ⟨22, _⟩ => ⟨S16x2048, .f32⟩
  | .hbm, ⟨23, _⟩ => ⟨S16x2048, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S16x2048x2048, .f32⟩
  | .hbm, ⟨32, _⟩ => ⟨S16x2048x2048, .f32⟩
  | .hbm, ⟨33, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call1_cst : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  bcast_S_S16x2048x1024 : S_.BroadcastsInDim S16x2048x1024 (![] : Fin 0 → Fin S16x2048x1024.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x1024_S1024x1024_S16x2048x1024_2_1_01_0_n_n_wf : DotDims.WF S16x2048x1024 S1024x1024 S16x2048x1024 [2] [1] [0, 1] [0] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.LibTransposedDot.lean ====
/-
  A matrix product with the right operand contracted on its last axis, read at an index.

  For the dimension numbers of an M × K by N × K product (contract the columns of both operands, no batch axis: the
  left operand times the transpose of the right one), the sum over the contraction index that a matmul or a
  dot_general denotes at the ideal values is, at row p and column q, the sum over k of l (p, k) · r (q, k). General in
  M, K, N; a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.TransposedDot

open Idealize.ShloMosaic Idealize.ShloMosaic.ValueIdx

variable (M K N : Nat)

theorem contr_rank : (DotDims.transposedRhs M K N).contr.rank = 1 := rfl
theorem contr_size : (DotDims.transposedRhs M K N).contr.size ⟨0, by rw [contr_rank]; exact Nat.one_pos⟩ = K := rfl

/-- The contraction index is its one coordinate, a column of either operand. -/
abbrev colEquiv : (DotDims.transposedRhs M K N).contr.Idx ≃ Fin K :=
  contrEquiv1 (DotDims.transposedRhs M K N) K (contr_rank M K N) (contr_size M K N)

/-- The left operand is read at (row of the result, k). -/
theorem lhsIdx_eq (j : (⟨2, ![M, N]⟩ : Shape).Idx) (k : Fin K) :
    (DotDims.transposedRhs M K N).lhsIdx j ((colEquiv M K N).symm k) = ix2 (j 0) k := by
  funext a
  apply Fin.ext
  match a with
  | ⟨0, _⟩ => rfl
  | ⟨1, _⟩ =>
    exact ((DotDims.transposedRhs M K N).lhsIdx_val_of_single (cl := 1) rfl j _).trans
      (contrEquiv1_symm_val (DotDims.transposedRhs M K N) K (contr_rank M K N) (contr_size M K N) k)

/-- The right operand is read at (column of the result, k): its rows are the result's columns. -/
theorem rhsIdx_eq (j : (⟨2, ![M, N]⟩ : Shape).Idx) (k : Fin K) :
    (DotDims.transposedRhs M K N).rhsIdx j ((colEquiv M K N).symm k) = ix2 (j 1) k := by
  funext a
  apply Fin.ext
  match a with
  | ⟨0, _⟩ => rfl
  | ⟨1, _⟩ =>
    exact ((DotDims.transposedRhs M K N).rhsIdx_val_of_single (cr := 1) rfl j _).trans
      (contrEquiv1_symm_val (DotDims.transposedRhs M K N) K (contr_rank M K N) (contr_size M K N) k)

/-- The contraction sum, over the shared column index. -/
theorem sum_eq (l : (⟨2, ![M, K]⟩ : Shape).Idx → EReal) (r : (⟨2, ![N, K]⟩ : Shape).Idx → EReal) (j : (⟨2, ![M, N]⟩ : Shape).Idx) :
    (∑ kk : (DotDims.transposedRhs M K N).contr.Idx,
        l ((DotDims.transposedRhs M K N).lhsIdx j kk) * r ((DotDims.transposedRhs M K N).rhsIdx j kk))
      = ∑ k : Fin K, l (ix2 (j 0) k) * r (ix2 (j 1) k) := by
  rw [← Equiv.sum_comp (colEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![N, K]⟩ φ₂)
    (p : Fin M) (q : Fin N) :
    matmul (DotDims.transposedRhs M K N) prec l r (constant ⟨2, ![M, N]⟩ .f32 0x00000000#32) (ix2 p q)
      = ∑ k : Fin K, l (ix2 p k) * r (ix2 q k) :=
  (Ideal.matmul_constant_zero_apply (DotDims.transposedRhs M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![N, K]⟩ φ₂)
    (p : Fin M) (q : Fin N) :
    Host.dotGeneral (DotDims.transposedRhs M K N) prec l r (ix2 p q) = ∑ k : Fin K, l (ix2 p k) * r (ix2 q k) :=
  (Ideal.dotGeneral_apply (DotDims.transposedRhs M K N) prec _ l r (ix2 p q)).trans (sum_eq M K N l r (ix2 p q))

end Idealize.ShloMosaic.TransposedDot

end
-- ==== Proof.LibColumns.lean ====
/-
  Column layouts read at an index.

  The three keepdims forms of a column: a vector of length a cast to an a × 1 column, such a column cast back
  to the vector, and a column broadcast along a new trailing extent b. Each reads the operand at the row; the unit
  coordinate carries no information. General in a and b.
-/
import Idealize.ShloMosaic.Lib.ValueIdx
import Idealize.ShloMosaic.Lib.ValueLayout
import Idealize.ShloMosaic.Lib.Pipeline.Value

noncomputable section

namespace Idealize.ShloMosaic.Columns

open Idealize.ShloMosaic Idealize.ShloMosaic.ValueIdx

variable {α : Type}

/-- A vector cast to a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column cast to a vector reads, at i, the column at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A column broadcast to b columns reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Columns

end
-- ==== Proof.LibSoftmaxRow.lean ====
/-
  One row of a softmax over the extended reals, in the two normalisations the programs use.
  For a row `L` of scores: its maximum `rowMax L` (a fold of `max` from the bottom element), the
  numerators `num L k = exp (L k - rowMax L)`, their sum `den L`. One program multiplies each numerator by
  the reciprocal `1 / den L`, the other divides by `den L`. The two agree as soon as `den L ≠ 0`, and for
  a nonempty row of REAL scores the denominator is at least one: the maximum is attained at some `k`,
  where the numerator is `exp 0 = 1`, and every numerator is nonnegative.
-/
import Idealize.ShloMosaic.PureOps.Ideal
import Mathlib.Algebra.Order.BigOperators.Group.Finset
import Mathlib.Data.Finset.Fold

noncomputable section

namespace Cert.Softmax

open Idealize.ShloMosaic

variable {n : ℕ}

/-- The row's maximum: the fold of `max` over the row from the bottom element. -/
def rowMax (L : Fin n → EReal) : EReal := (Finset.univ : Finset (Fin n)).fold max ⊥ L

/-- The numerator at `k`: the exponential of the score less the row's maximum. -/
def num (L : Fin n → EReal) (k : Fin n) : EReal := Ideal.exp (L k - rowMax L)

/-- The denominator: the sum of the row's numerators. -/
def den (L : Fin n → EReal) : EReal := ∑ j : Fin n, num L j

/-- The weight at `k`, normalised by multiplying with the reciprocal of the denominator. -/
def weight (L : Fin n → EReal) (k : Fin n) : EReal := num L k * Ideal.div 1 (den L)

theorem exp_nonneg (x : EReal) : 0 ≤ Ideal.exp x := by
  induction x using EReal.rec with
  | bot => exact le_rfl
  | top => exact le_top
  | coe r => rw [Ideal.exp_coe]; exact_mod_cast (Real.exp_pos r).le

/-- The maximum of a nonempty row is one of its entries. -/
theorem rowMax_attained (hn : 0 < n) (L : Fin n → EReal) : ∃ k, rowMax L = L k := by
  obtain ⟨k, -, hk⟩ := Finset.exists_max_image (Finset.univ : Finset (Fin n)) L ⟨⟨0, hn⟩, Finset.mem_univ _⟩
  refine ⟨k, le_antisymm ?_ ?_⟩
  · exact (Finset.fold_max_le _).mpr ⟨bot_le, fun x hx => hk x hx⟩
  · exact (Finset.le_fold_max _).mpr (Or.inr ⟨k, Finset.mem_univ _, le_rfl⟩)

/-- A nonempty row of real scores has denominator at least one, so not zero. -/
theorem den_ne_zero (hn : 0 < n) (L : Fin n → EReal) (hL : ∀ k, ∃ r : ℝ, L k = (r : EReal)) : den L ≠ 0 := by
  obtain ⟨k, hk⟩ := rowMax_attained hn L
  obtain ⟨r, hr⟩ := hL k
  have h1 : num L k = 1 := by
    unfold num
    rw [hk, hr, ← EReal.coe_sub, sub_self, EReal.coe_zero]
    show Ideal.exp ((0 : ℝ) : EReal) = 1
    rw [Ideal.exp_coe, Real.exp_zero, EReal.coe_one]
  have h2 : num L k ≤ den L :=
    Finset.single_le_sum (f := num L) (fun j _ => exp_nonneg _) (Finset.mem_univ k)
  intro h0
  rw [h1, h0] at h2
  exact absurd h2 (by norm_num)

/-- Dividing by a nonzero denominator is multiplying by its reciprocal. -/
theorem div_eq_mul_recip (x s : EReal) (hs : s ≠ 0) : Ideal.div x s = x * Ideal.div 1 s := by
  unfold Ideal.div
  rw [if_neg hs, if_neg hs, one_mul]

/-- For a nonempty row of real scores the quotient by the denominator is the weight. -/
theorem div_den_eq_weight (hn : 0 < n) (L : Fin n → EReal) (hL : ∀ k, ∃ r : ℝ, L k = (r : EReal)) (k : Fin n) :
    Ideal.div (num L k) (den L) = weight L k :=
  div_eq_mul_recip _ _ (den_ne_zero hn L hL)

end Cert.Softmax

end
-- ==== Proof.KernelPayload.lean ====
/-
  The body's arithmetic read at an index, over the extended reals.

  The kernel body has two kinds of stored value. A 512-row chunk of the projected keys: the rows of the
  loaded chunk times the (already transposed) weight, plus the bias row, under a ReLU — entry (r, o) is
  max (Σ_h x (r, h) · wt (h, o) + bias o) 0. And the attention block of one 256-row query tile against the whole
  [2048, 1024] array of projected keys K: the tile is projected the same way, its scores against every key row
  are s_r = Σ_e pl e · K (r, e), the row maximum is subtracted, the exponentials are the numerators, and the
  numerator-weighted sum of the key rows is divided by the sum of the numerators. Every step is read at one
  index; a change of float format is the identity here, a lane reduction a sum or a fold of max over the lane
  coordinate, a matrix product a sum over the contracted coordinate.
-/
import proofs.«426007_j22471268893254_3_alg».proof.Proof.Gen.KernelIdeal.Skeleton
import proofs.«426007_j22471268893254_3_alg».proof.Proof.LibPlainDot
import proofs.«426007_j22471268893254_3_alg».proof.Proof.LibTransposedDot
import proofs.«426007_j22471268893254_3_alg».proof.Proof.LibColumns
import proofs.«426007_j22471268893254_3_alg».proof.Proof.LibSoftmaxRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- One output feature of a projected row: the row against column o of the transposed weight, plus the bias, under the ReLU. -/
def proj (x : Fin 1024 → EReal) (wt : S1024x1024.Idx → EReal) (bias : Fin 1024 → EReal) (o : Fin 1024) : EReal :=
  max ((∑ h : Fin 1024, x h * wt (ix2 h o)) + bias o) 0

/-- The scores of one projected query row against every row of a key array. -/
def scoreRow (pl : Fin 1024 → EReal) (k : S2048x1024.Idx → EReal) (r : Fin 2048) : EReal :=
  ∑ e : Fin 1024, pl e * k (ix2 r e)

/-! ## The body's four matrix products are the plain and the transposed-right product -/

theorem dot512 : dot_S512x1024_S1024x1024_S512x1024_1_0_0_1_n_n = DotDims.plain 512 1024 1024 := rfl
theorem dot256 : dot_S256x1024_S1024x1024_S256x1024_1_0_0_1_n_n = DotDims.plain 256 1024 1024 := rfl
theorem dotScores : dot_S256x1024_S2048x1024_S256x2048_1_1_0_0_n_n = DotDims.transposedRhs 256 1024 2048 := rfl
theorem dotMix : dot_S256x2048_S2048x1024_S256x1024_1_0_0_1_n_n = DotDims.plain 256 2048 1024 := rfl

/-! ## Small readings -/

/-- The lane coordinate k put back into row p of a [256, 2048] array. -/
theorem lift_row (p : Fin 256) (k : Fin 2048) : reduces_S256x2048_S256.lift (ix1 p) k = ix2 p k := by
  funext c
  apply Fin.ext
  match c with
  | ⟨0, _⟩ => rfl
  | ⟨1, _⟩ => rfl

/-- The word the maximum starts from is minus infinity. -/
theorem neg_inf_word : Ideal.ofBits .f32 0xFF800000#32 = ⊥ := by simp [Ideal.ofBits, Ideal.ieee]

theorem exp_apply {s : Shape} {φ : FTy} (a : FVec Ideal s φ) (i : s.Idx) : exp a i = Ideal.exp (a i) := rfl

theorem ix1_zero {n : Nat} (t : Fin n) : (ix1 t) 0 = t := rfl

/-- A row's lane maximum from minus infinity is the fold of max over the row from the bottom element. -/
theorem rowMax_apply (X : FVec Ideal S256x2048 .f32) (hφ : FTy.f32 = FTy.f32 ∨ FTy.f32 = FTy.bf16)
    (hacc : (0xFF800000#32 : BitVec 32) = 0xFF800000#32) (t : Fin 256) :
    multiReduction .maximumf [1] S256 X 0xFF800000#32 reduces_S256x2048_S256 hφ hacc (ix1 t)
      = Cert.Softmax.rowMax (fun r => X (ix2 t r)) :=
  (Ideal.multiReduction_maximumf_single X 0xFF800000#32 reduces_S256x2048_S256 hφ hacc (ix1 t)).trans (by
    unfold Cert.Softmax.rowMax
    rw [Ideal.ofBits_def, neg_inf_word]
    congr 1
    funext r
    exact congrArg X (lift_row t r))

/-- A row's lane sum is the sum over the row. -/
theorem rowSum_apply (X : FVec Ideal S256x2048 .f32) (hφ : FTy.f32 = FTy.f32 ∨ FTy.f32 = FTy.bf16)
    (hacc : (0x00000000#32 : BitVec 32) = 0x00000000#32) (t : Fin 256) :
    multiReduction .add [1] S256 X 0x00000000#32 reduces_S256x2048_S256 hφ hacc (ix1 t) = ∑ r : Fin 2048, X (ix2 t r) :=
  (Ideal.multiReduction_add_single X 0x00000000#32 reduces_S256x2048_S256 hφ hacc (ix1 t)).trans
    (Finset.sum_congr rfl fun r _ => congrArg X (lift_row t r))

/-- The same two readings as equalities of whole vectors of length 256. -/
theorem rowMax_fn (X : FVec Ideal S256x2048 .f32) (hφ : FTy.f32 = FTy.f32 ∨ FTy.f32 = FTy.bf16)
    (hacc : (0xFF800000#32 : BitVec 32) = 0xFF800000#32) :
    multiReduction .maximumf [1] S256 X 0xFF800000#32 reduces_S256x2048_S256 hφ hacc
      = fun j => Cert.Softmax.rowMax (fun r => X (ix2 (j 0) r)) :=
  funext fun j => (congrArg _ (eq_ix1 j)).trans (rowMax_apply X hφ hacc (j 0))

theorem rowSum_fn (X : FVec Ideal S256x2048 .f32) (hφ : FTy.f32 = FTy.f32 ∨ FTy.f32 = FTy.bf16)
    (hacc : (0x00000000#32 : BitVec 32) = 0x00000000#32) :
    multiReduction .add [1] S256 X 0x00000000#32 reduces_S256x2048_S256 hφ hacc
      = fun j => ∑ r : Fin 2048, X (ix2 (j 0) r) :=
  funext fun j => (congrArg _ (eq_ix1 j)).trans (rowSum_apply X hφ hacc (j 0))

/-! ## The four stored chunks of projected keys -/

theorem chunk6 (v1 : FVec Ideal S1024x1024 .bf16) (v3 : FVec Ideal S1x1024 .f32) (x : Vec Ideal S512x1024 .f32) (r : Fin 512) (o : Fin 1024) :
    k0_pay6 v1 v3 x (ix2 r o) = proj (fun h => x (ix2 r h)) v1 (fun e => v3 (ix2 (0 : Fin 1) e)) o := by
  unfold k0_pay6
  rw [shapeCast_self, truncf_apply, maximumf_apply, addf_apply, broadcast_apply, dot512,
    PlainDot.matmul_zero_apply, broadcastTo_1b_ab_apply, Ideal.ofBits_def, Ideal.ofBits_zero_f32]
  rfl

theorem chunk7 (v1 : FVec Ideal S1024x1024 .bf16) (v3 : FVec Ideal S1x1024 .f32) (x : Vec Ideal S512x1024 .f32) (r : Fin 512) (o : Fin 1024) :
    k0_pay7 v1 v3 x (ix2 r o) = proj (fun h => x (ix2 r h)) v1 (fun e => v3 (ix2 (0 : Fin 1) e)) o := by
  unfold k0_pay7
  rw [shapeCast_self, truncf_apply, maximumf_apply, addf_apply, broadcast_apply, dot512,
    PlainDot.matmul_zero_apply, broadcastTo_1b_ab_apply, Ideal.ofBits_def, Ideal.ofBits_zero_f32]
  rfl

theorem chunk3 (v0 : Vec Ideal S1024x1024 .bf16) (v2 : Vec Ideal S1x1024 .f32) (x : Vec Ideal S512x1024 .f32) (r : Fin 512) (o : Fin 1024) :
    k0_pay3 v0 v2 x (ix2 r o) = proj (fun h => x (ix2 r h)) v0 (fun e => v2 (ix2 (0 : Fin 1) e)) o := by
  unfold k0_pay3 k0_pay1 k0_pay2
  rw [shapeCast_self, shapeCast_self, shapeCast_self, truncf_apply, maximumf_apply, addf_apply, broadcast_apply, dot512,
    PlainDot.matmul_zero_apply, broadcastTo_1b_ab_apply, Ideal.ofBits_def, Ideal.ofBits_zero_f32]
  rfl

theorem chunk4 (v0 : Vec Ideal S1024x1024 .bf16) (v2 : Vec Ideal S1x1024 .f32) (x : Vec Ideal S512x1024 .f32) (r : Fin 512) (o : Fin 1024) :
    k0_pay4 v0 v2 x (ix2 r o) = proj (fun h => x (ix2 r h)) v0 (fun e => v2 (ix2 (0 : Fin 1) e)) o := by
  unfold k0_pay4 k0_pay1 k0_pay2
  rw [shapeCast_self, shapeCast_self, shapeCast_self, truncf_apply, maximumf_apply, addf_apply, broadcast_apply, dot512,
    PlainDot.matmul_zero_apply, broadcastTo_1b_ab_apply, Ideal.ofBits_def, Ideal.ofBits_zero_f32]
  rfl

/-! ## The attention block of one query tile -/

/-- Entry (t, d) of the stored block: the numerator-weighted sum of column d of the keys, divided by the sum of the
    numerators, for the scores of the projected query row t. -/
theorem pay5_apply (v0 : Vec Ideal S1024x1024 .bf16) (v2 : Vec Ideal S1x1024 .f32) (v7 : Vec Ideal S1x256x1024 .f32)
    (v16 : Vec Ideal S2048x1024 .bf16) (t : Fin 256) (d : Fin 1024) :
    k0_pay5 v0 v2 v7 v16 (ix3 (0 : Fin 1) t d)
      = Ideal.div
          (∑ r : Fin 2048, Cert.Softmax.num (scoreRow (proj (fun h => v7 (ix3 (0 : Fin 1) t h)) v0 (fun e => v2 (ix2 (0 : Fin 1) e))) v16) r * v16 (ix2 r d))
          (Cert.Softmax.den (scoreRow (proj (fun h => v7 (ix3 (0 : Fin 1) t h)) v0 (fun e => v2 (ix2 (0 : Fin 1) e))) v16)) := by
  unfold k0_pay5 k0_pay1 k0_pay2
  rw [dot256, dotScores, dotMix, rowMax_fn, rowSum_fn]
  simp only [shapeCast_self, shapeCast_ab_1ab_apply, divf_apply, PlainDot.matmul_zero_apply, TransposedDot.matmul_zero_apply,
    truncf_apply, Columns.broadcastTo_a1_ab_apply, Columns.shapeCast_a_a1_apply, exp_apply, ix1_zero,
    maximumf_apply, addf_apply, subf_apply, broadcast_apply,
    broadcastTo_1b_ab_apply, shapeCast_1ab_ab_apply, Ideal.ofBits_def, Ideal.ofBits_zero_f32]
  rfl

end Cert.KernelIdeal.Pay

end
-- ==== Proof.KeyBands.lean ====
/-
  Four row bands that tile a [2048, 1024] array.

  The projected keys are written 512 rows at a time. What the array holds after the four stores is read one
  row at a time: a row lies in exactly one band, the stores to the other bands leave it alone, and the store to
  its own band puts the payload's row there. So if every payload is one function G at its rows, the array is G.
-/
import Idealize.ShloMosaic.Lib.Pipeline.Value
import Idealize.ShloMosaic.Lib.Pipeline.FrameBody
import Idealize.ShloMosaic.Lib.ValueIdx

noncomputable section

namespace Cert.Bands

open Idealize.ShloMosaic Idealize.ShloMosaic.ValueIdx

variable {Val : EltTy → Type} [∀ e, Nonempty (Val e)] {e : EltTy}

/-- The array of projected keys, and one band of 512 of its rows. -/
abbrev SK : Shape := ⟨2, ![2048, 1024]⟩
abbrev SB : Shape := ⟨2, ![512, 1024]⟩

/-- The band of 512 rows that starts at row o. -/
abbrev band (o : Nat) (inb : ∀ a, (![o, 0] : Fin 2 → Nat) a + (![512, 1024] : Fin 2 → Nat) a ≤ SK.size a) : Rect SK :=
  Rect.unit (s := SK) ![o, 0] ![512, 1024] inb

/-- Row r of the array is row r' of the band starting at row o when r = o + r'. -/
theorem ix_eq_emb (o : Nat) (inb : ∀ a, (![o, 0] : Fin 2 → Nat) a + (![512, 1024] : Fin 2 → Nat) a ≤ SK.size a)
    (r : Fin 2048) (r' : Fin 512) (c : Fin 1024) (h : r.val = o + r'.val) :
    (ix2 r c : SK.Idx) = (band o inb).emb (ix2 r' c) := by
  funext a
  apply Fin.ext
  match a with
  | ⟨0, _⟩ => show r.val = o + 1 * r'.val; omega
  | ⟨1, _⟩ => show c.val = 0 + 1 * c.val; omega

/-- A row before a band's first row, or at or past its last, is not in the band. -/
theorem not_mem_band (o : Nat) (inb : ∀ a, (![o, 0] : Fin 2 → Nat) a + (![512, 1024] : Fin 2 → Nat) a ≤ SK.size a)
    (r : Fin 2048) (c : Fin 1024) (h : r.val < o ∨ o + 512 ≤ r.val) :
    (ix2 r c : SK.Idx) ∉ (band o inb).set := by
  rw [Rect.mem_set_unit]
  intro hm
  have h0 := hm 0
  have e1 : ((ix2 r c : SK.Idx) 0 : Nat) = r.val := rfl
  have e2 : (![o, 0] : Fin 2 → Nat) 0 = o := rfl
  have e3 : (![512, 1024] : Fin 2 → Nat) 0 = 512 := rfl
  rw [e1, e2, e3] at h0
  omega

/-- Every entry of a row inside the band's range is in the band. -/
theorem mem_band (o : Nat) (inb : ∀ a, (![o, 0] : Fin 2 → Nat) a + (![512, 1024] : Fin 2 → Nat) a ≤ SK.size a)
    (y : SK.Idx) (hlo : o ≤ (y 0).val) (hhi : (y 0).val < o + 512) : y ∈ (band o inb).set := by
  rw [Rect.mem_set_unit]
  intro a
  have hc : (y 1).val < 1024 := (y 1).isLt
  match a with
  | ⟨0, _⟩ => exact ⟨hlo, hhi⟩
  | ⟨1, _⟩ => exact ⟨Nat.zero_le _, by show (y 1).val < 0 + 1024; omega⟩

/-- Under a last store to the band, a row of the band reads the store's payload. -/
theorem canon_here (w : SB.Idx → Val e) (o : Nat) (inb : ∀ a, (![o, 0] : Fin 2 → Nat) a + (![512, 1024] : Fin 2 → Nat) a ≤ SK.size a)
    (L : List (View.Piece Val SK e)) (r : Fin 2048) (r' : Fin 512) (c : Fin 1024) (h : r.val = o + r'.val) :
    View.canon (⟨band o inb, w⟩ :: L) (ix2 r c) = w (ix2 r' c) := by
  rw [ix_eq_emb o inb r r' c h]
  exact View.canon_cons_emb (band o inb) w L (ix2 r' c)

/-- A row outside the band reads what the earlier stores left. -/
theorem canon_skip (w : SB.Idx → Val e) (o : Nat) (inb : ∀ a, (![o, 0] : Fin 2 → Nat) a + (![512, 1024] : Fin 2 → Nat) a ≤ SK.size a)
    (L : List (View.Piece Val SK e)) (r : Fin 2048) (c : Fin 1024) (h : r.val < o ∨ o + 512 ≤ r.val) :
    View.canon (⟨band o inb, w⟩ :: L) (ix2 r c) = View.canon L (ix2 r c) :=
  View.canon_cons_of_not_mem _ L (not_mem_band o inb r c h)

/-- Four stores of 512 rows each — the last to rows 1536 and up, before it 1024, 512, 0 and up: if every store's
    payload is G at its rows, the array reads G at every row. -/
theorem canon_bands (w3 w2 w1 w0 : SB.Idx → Val e)
    (i3 : ∀ a, (![1536, 0] : Fin 2 → Nat) a + (![512, 1024] : Fin 2 → Nat) a ≤ SK.size a)
    (i2 : ∀ a, (![1024, 0] : Fin 2 → Nat) a + (![512, 1024] : Fin 2 → Nat) a ≤ SK.size a)
    (i1 : ∀ a, (![512, 0] : Fin 2 → Nat) a + (![512, 1024] : Fin 2 → Nat) a ≤ SK.size a)
    (i0 : ∀ a, (![0, 0] : Fin 2 → Nat) a + (![512, 1024] : Fin 2 → Nat) a ≤ SK.size a)
    (G : Fin 2048 → Fin 1024 → Val e)
    (h0 : ∀ (r : Fin 2048) (r' : Fin 512) (c : Fin 1024), r.val = 0 + r'.val → w0 (ix2 r' c) = G r c)
    (h1 : ∀ (r : Fin 2048) (r' : Fin 512) (c : Fin 1024), r.val = 512 + r'.val → w1 (ix2 r' c) = G r c)
    (h2 : ∀ (r : Fin 2048) (r' : Fin 512) (c : Fin 1024), r.val = 1024 + r'.val → w2 (ix2 r' c) = G r c)
    (h3 : ∀ (r : Fin 2048) (r' : Fin 512) (c : Fin 1024), r.val = 1536 + r'.val → w3 (ix2 r' c) = G r c)
    (r : Fin 2048) (c : Fin 1024) :
    View.canon [⟨band 1536 i3, w3⟩, ⟨band 1024 i2, w2⟩, ⟨band 512 i1, w1⟩, ⟨band 0 i0, w0⟩] (ix2 r c) = G r c := by
  have hr := r.isLt
  by_cases c3 : 1536 ≤ r.val
  · have hv : r.val = 1536 + (⟨r.val - 1536, by omega⟩ : Fin 512).val := by show r.val = 1536 + (r.val - 1536); omega
    exact (canon_here w3 1536 i3 _ r _ c hv).trans (h3 r _ c hv)
  · refine (canon_skip w3 1536 i3 _ r c (Or.inl (by omega))).trans ?_
    by_cases c2 : 1024 ≤ r.val
    · have hv : r.val = 1024 + (⟨r.val - 1024, by omega⟩ : Fin 512).val := by show r.val = 1024 + (r.val - 1024); omega
      exact (canon_here w2 1024 i2 _ r _ c hv).trans (h2 r _ c hv)
    · refine (canon_skip w2 1024 i2 _ r c (Or.inl (by omega))).trans ?_
      by_cases c1 : 512 ≤ r.val
      · have hv : r.val = 512 + (⟨r.val - 512, by omega⟩ : Fin 512).val := by show r.val = 512 + (r.val - 512); omega
        exact (canon_here w1 512 i1 _ r _ c hv).trans (h1 r _ c hv)
      · refine (canon_skip w1 512 i1 _ r c (Or.inl (by omega))).trans ?_
        have hv : r.val = 0 + (⟨r.val, by omega⟩ : Fin 512).val := by show r.val = 0 + r.val; omega
        exact (canon_here w0 0 i0 _ r _ c hv).trans (h0 r _ c hv)

/-- Every index of the array is in one of the four bands. -/
theorem bands_cover (w3 w2 w1 w0 : SB.Idx → Val e)
    (i3 : ∀ a, (![1536, 0] : Fin 2 → Nat) a + (![512, 1024] : Fin 2 → Nat) a ≤ SK.size a)
    (i2 : ∀ a, (![1024, 0] : Fin 2 → Nat) a + (![512, 1024] : Fin 2 → Nat) a ≤ SK.size a)
    (i1 : ∀ a, (![512, 0] : Fin 2 → Nat) a + (![512, 1024] : Fin 2 → Nat) a ≤ SK.size a)
    (i0 : ∀ a, (![0, 0] : Fin 2 → Nat) a + (![512, 1024] : Fin 2 → Nat) a ≤ SK.size a) (y : SK.Idx) :
    ∃ p ∈ ([⟨band 1536 i3, w3⟩, ⟨band 1024 i2, w2⟩, ⟨band 512 i1, w1⟩, ⟨band 0 i0, w0⟩] : List (View.Piece Val SK e)), y ∈ p.1.set := by
  have hr : (y 0).val < 2048 := (y 0).isLt
  by_cases c3 : 1536 ≤ (y 0).val
  · exact ⟨_, List.mem_cons_self, mem_band 1536 i3 y c3 (by omega)⟩
  · by_cases c2 : 1024 ≤ (y 0).val
    · exact ⟨_, List.mem_cons_of_mem _ List.mem_cons_self, mem_band 1024 i2 y c2 (by omega)⟩
    · by_cases c1 : 512 ≤ (y 0).val
      · exact ⟨_, List.mem_cons_of_mem _ (List.mem_cons_of_mem _ List.mem_cons_self), mem_band 512 i1 y c1 (by omega)⟩
      · exact ⟨_, List.mem_cons_of_mem _ (List.mem_cons_of_mem _ (List.mem_cons_of_mem _ List.mem_cons_self)),
          mem_band 0 i0 y (Nat.zero_le _) (by omega)⟩

end Cert.Bands

end
-- ==== Proof.KernelPieces.lean ====
/-
  What one run of the body leaves, case by case.

  At the first query tile of a batch (case A) the body projects the batch's q block 512 rows at a time and stores the
  four chunks into the scratch: together they tile it, so the scratch holds the projected keys of the whole block,
  entry (r, o) the projection of row r at feature o. It then reads the scratch back whole and computes the attention
  block of the tile against it. At every other tile (case B) it stores nothing into the scratch and computes the
  attention block against what the point before left there.
-/
import proofs.«426007_j22471268893254_3_alg».proof.Proof.Gen.KernelIdeal.Frame
import proofs.«426007_j22471268893254_3_alg».proof.Proof.KernelPayload
import proofs.«426007_j22471268893254_3_alg».proof.Proof.KeyBands
import Idealize.ShloMosaic.Lib.Pipeline.Value
import Idealize.ShloMosaic.Lib.ValueLayout

set_option maxRecDepth 16384

noncomputable section

namespace Cert.KernelIdeal.Pieces

open Cert.KernelIdeal Cert.KernelIdeal.Gen Idealize.ShloMosaic Idealize.ShloMosaic.TcCoe Idealize.ShloMosaic.Tactic Idealize.ShloMosaic.ValueIdx
open Idealize.SL Idealize.SL.Sem
open Cert.Bands

theorem hz2 : (![0, 0] : Fin 2 → Nat) = fun _ => 0 := funext fun a => by fin_cases a <;> rfl
theorem hz3 : (![0, 0, 0] : Fin 3 → Nat) = fun _ => 0 := funext fun a => by fin_cases a <;> rfl

section Reads
variable {F : FTy → Type} [FloatOps F]

/-- The whole [1, 2048, 1024] block read through its squeeze to [2048, 1024]: row r, column h is entry (0, r, h). -/
theorem read_squeezed (arg2 : Memref sig .tc .vmem S1x2048x1024 .f32) (harg2 : arg2.IsWhole)
    (hs : ∀ a, (Rect.unit (s := S1x2048x1024) ![0, 0, 0] ![1, 2048, 1024] inb_S1x2048x1024_S1x2048x1024_0_0_0).stride a = 1)
    (x0 : Vec F S1x2048x1024 .f32) (r : Fin 2048) (h : Fin 1024) :
    ((arg2.slice (Rect.unit ![0, 0, 0] ![1, 2048, 1024] inb_S1x2048x1024_S1x2048x1024_0_0_0) hs).squeeze S2048x1024 squeezes_S1x2048x1024_S2048x1024).view.read (Elt F) (harg2.unread x0) (ix2 r h)
      = x0 (ix3 (0 : Fin 1) r h) := by
  have hc : (Rect.unit (s := S1x2048x1024) ![0, 0, 0] ![1, 2048, 1024] inb_S1x2048x1024_S1x2048x1024_0_0_0).shape.ShapeCasts S2048x1024 := by decide
  rw [Memref.read_squeeze_slice arg2 _ hs squeezes_S1x2048x1024_S2048x1024 hc]
  have e : View.readAt (Elt F) arg2.view (Rect.unit (s := S1x2048x1024) ![0, 0, 0] ![1, 2048, 1024] inb_S1x2048x1024_S1x2048x1024_0_0_0).toLoadRect (harg2.unread x0) = x0 := by
    rw [View.readAt_eq_ld, harg2.read_unread]
    exact View.ld_unit_zero hz3 _ x0
  rw [e]
  exact shapeCast_1ab_ab_apply x0 hc r h

/-- A load of 512 rows from row o of that squeezed block: row r' of the load is row o + r' of the block. -/
theorem qchunk_read (arg2 : Memref sig .tc .vmem S1x2048x1024 .f32) (harg2 : arg2.IsWhole)
    (hs : ∀ a, (Rect.unit (s := S1x2048x1024) ![0, 0, 0] ![1, 2048, 1024] inb_S1x2048x1024_S1x2048x1024_0_0_0).stride a = 1)
    (x0 : Vec F S1x2048x1024 .f32) (o : Nat) (inb : ∀ a, (![o, 0] : Fin 2 → Nat) a + (![512, 1024] : Fin 2 → Nat) a ≤ S2048x1024.size a)
    (r : Fin 2048) (r' : Fin 512) (h : Fin 1024) (hr : r.val = o + r'.val) :
    View.ld (((arg2.slice (Rect.unit ![0, 0, 0] ![1, 2048, 1024] inb_S1x2048x1024_S1x2048x1024_0_0_0) hs).squeeze S2048x1024 squeezes_S1x2048x1024_S2048x1024).view.read (Elt F) (harg2.unread x0))
        (Rect.unit (s := S2048x1024) ![o, 0] ![512, 1024] inb) (ix2 r' h)
      = x0 (ix3 (0 : Fin 1) r h) := by
  show ((arg2.slice _ hs).squeeze S2048x1024 squeezes_S1x2048x1024_S2048x1024).view.read (Elt F) (harg2.unread x0) ((band o inb).emb (ix2 r' h)) = _
  rw [← ix_eq_emb o inb r r' h hr]
  exact read_squeezed arg2 harg2 hs x0 r h

end Reads

/-- CASE A's scratch at (r, o): the four stored chunks tile the array, and each is the projection of its rows of the q
    block — so the whole scratch is the projected keys of that block. -/
theorem soutA_apply (c : Dev nD) (i : grid0.Coords) (arg2 : Memref sig .tc .vmem S1x2048x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x256x1024 .f32) (harg6 : arg6.IsWhole) (arg7 : Memref sig .tc .vmem S2048x1024 .bf16) (harg7 : arg7.IsWhole) (hc0 : cond0_0 i)
    (x0 : Vec Ideal S1x2048x1024 .f32) (x1 : Vec Ideal S1x256x1024 .f32) (x2 : Vec Ideal S1024x1024 .bf16) (x3 : Vec Ideal S1x1024 .f32)
    (r : Fin 2048) (o : Fin 1024) :
    sout0_A_0 (F := Ideal) c i arg2 harg2 arg3 harg3 arg4 harg4 arg5 harg5 arg6 harg6 arg7 harg7 hc0 x0 x1 x2 x3 (ix2 r o)
      = Pay.proj (fun h => x0 (ix3 (0 : Fin 1) r h)) x2 (fun e => x3 (ix2 (0 : Fin 1) e)) o := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  unfold k0_pay1 k0_pay2
  simp only [View.readAt_eq_ld, harg4.read_unread, harg5.read_unread, View.ld_unit_zero (S := S1024x1024) hz2,
    View.ld_unit_zero (S := S1x1024) hz2, shapeCast_self]
  refine canon_bands (Val := Elt Ideal) (e := .bf16) _ _ _ _ _ _ _ _
    (fun r o => Pay.proj (fun h => x0 (ix3 (0 : Fin 1) r h)) x2 (fun e => x3 (ix2 (0 : Fin 1) e)) o) ?_ ?_ ?_ ?_ r o
  · intro r r' c hv
    refine (Pay.chunk6 x2 x3 _ r' c).trans ?_
    show Pay.proj _ x2 _ c = Pay.proj _ x2 _ c
    congr 1
    funext h
    exact qchunk_read arg2 harg2 (fun _ => rfl) x0 0 _ r r' h hv
  · intro r r' c hv
    refine (Pay.chunk7 x2 x3 _ r' c).trans ?_
    show Pay.proj _ x2 _ c = Pay.proj _ x2 _ c
    congr 1
    funext h
    exact qchunk_read arg2 harg2 (fun _ => rfl) x0 512 _ r r' h hv
  · intro r r' c hv
    refine (Pay.chunk3 x2 x3 _ r' c).trans ?_
    show Pay.proj _ x2 _ c = Pay.proj _ x2 _ c
    congr 1
    funext h
    exact qchunk_read arg2 harg2 (fun _ => rfl) x0 1024 _ r r' h hv
  · intro r r' c hv
    refine (Pay.chunk4 x2 x3 _ r' c).trans ?_
    show Pay.proj _ x2 _ c = Pay.proj _ x2 _ c
    congr 1
    funext h
    exact qchunk_read arg2 harg2 (fun _ => rfl) x0 1536 _ r r' h hv

/-- CASE B's output block: the attention block of this tile against the keys the point before left in the scratch. -/
theorem outB_eq (c : Dev nD) (i : grid0.Coords) (arg2 : Memref sig .tc .vmem S1x2048x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x256x1024 .f32) (harg6 : arg6.IsWhole) (arg7 : Memref sig .tc .vmem S2048x1024 .bf16) (harg7 : arg7.IsWhole) (hc0 : ¬cond0_0 i)
    (x0 : Vec Ideal S1x2048x1024 .f32) (x1 : Vec Ideal S1x256x1024 .f32) (x2 : Vec Ideal S1024x1024 .bf16) (x3 : Vec Ideal S1x1024 .f32)
    (xs0 : Vec Ideal S2048x1024 .bf16) :
    out0_B_4 (F := Ideal) c i arg2 harg2 arg3 harg3 arg4 harg4 arg5 harg5 arg6 harg6 arg7 harg7 hc0 x0 x1 x2 x3 xs0 = k0_pay5 x2 x3 x1 xs0 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero hz3]
  simp only [View.readAt_eq_ld, harg3.read_unread, harg4.read_unread, harg5.read_unread, harg7.read_unread,
    View.ld_unit_zero (S := S1024x1024) hz2, View.ld_unit_zero (S := S1x1024) hz2,
    View.ld_unit_zero (S := S1x256x1024) hz3, View.ld_unit_zero (S := S2048x1024) hz2]

/-- CASE A's output block: the same, against the keys this very point has just stored — the body reads the whole
    scratch back after its four stores, and they cover it. -/
theorem outA_eq (c : Dev nD) (i : grid0.Coords) (arg2 : Memref sig .tc .vmem S1x2048x1024 .f32) (harg2 : arg2.IsWhole) (arg3 : Memref sig .tc .vmem S1x256x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x256x1024 .f32) (harg6 : arg6.IsWhole) (arg7 : Memref sig .tc .vmem S2048x1024 .bf16) (harg7 : arg7.IsWhole) (hc0 : cond0_0 i)
    (x0 : Vec Ideal S1x2048x1024 .f32) (x1 : Vec Ideal S1x256x1024 .f32) (x2 : Vec Ideal S1024x1024 .bf16) (x3 : Vec Ideal S1x1024 .f32) :
    out0_A_4 (F := Ideal) c i arg2 harg2 arg3 harg3 arg4 harg4 arg5 harg5 arg6 harg6 arg7 harg7 hc0 x0 x1 x2 x3
      = k0_pay5 x2 x3 x1 (sout0_A_0 (F := Ideal) c i arg2 harg2 arg3 harg3 arg4 harg4 arg5 harg5 arg6 harg6 arg7 harg7 hc0 x0 x1 x2 x3) := by
  unfold out0_A_4 sout0_A_0
  rw [View.read_writes_eq_canon _ _ _ (cover0_A_4 c i arg2 harg2 arg3 harg3 arg4 harg4 arg5 harg5 arg6 harg6 arg7 harg7 hc0 x0 x1 x2 x3),
    View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero hz3]
  refine congr (congr (congr (congrArg (k0_pay5 (F := Ideal)) ?_) ?_) ?_) ?_
  · rw [View.readAt_eq_ld, harg4.read_unread]; exact View.ld_unit_zero hz2 _ x2
  · rw [View.readAt_eq_ld, harg5.read_unread]; exact View.ld_unit_zero hz2 _ x3
  · rw [View.readAt_eq_ld, harg3.read_unread]; exact View.ld_unit_zero hz3 _ x1
  · exact (View.readCov_eq_canon_ld arg7.view _ _ (bands_cover (Val := Elt Ideal) (e := .bf16) _ _ _ _ _ _ _ _)).trans
      (View.ld_unit_zero hz2 _ _)

end Cert.KernelIdeal.Pieces

end
-- ==== Proof.Spec.lean ====
/-
  The function both programs compute: cross-attention over a shared projection.

  For arrays q, p of shape [16, 2048, 1024], a matrix W of shape [1024, 1024] and a vector b of length 1024:

    lin x (β, r, o)  = max (Σ_h x (β, r, h) · W (o, h) + b o) 0       the projection x · Wᵀ + b under a ReLU
    score (β, t) r   = Σ_d lin p (β, t, d) · lin q (β, r, d)          the unscaled scores of query row t of batch β

  Row t of the scores is turned into softmax numerators num and their sum den (the row maximum subtracted
  first). The result at (β, t, d) is the den-normalised combination of the rows of lin q with those
  numerators, and the two programs normalise at different moments: one forms Σ_r num r · lin q (β, r, d)
  and divides the sum by den (attnK), the other divides every numerator by den before the sum (attnR).
-/
import Idealize.ShloMosaic.PureOps.Ideal
import Idealize.ShloMosaic.Lib.ValueIdx
import proofs.«426007_j22471268893254_3_alg».proof.Proof.LibSoftmaxRow

noncomputable section

namespace Cert.Attn

open Idealize.ShloMosaic Idealize.ShloMosaic.ValueIdx

/-- The shape of q, p and the result. -/
abbrev A3 : Shape := ⟨3, ![16, 2048, 1024]⟩
/-- The shape of the weight matrix. -/
abbrev A2 : Shape := ⟨2, ![1024, 1024]⟩
/-- The shape of the bias. -/
abbrev A1 : Shape := ⟨1, ![1024]⟩

/-- The projection of row (β, r) of x at output feature o: x · Wᵀ + b, then the ReLU. -/
def lin (x : A3.Idx → EReal) (W : A2.Idx → EReal) (b : A1.Idx → EReal) (β : Fin 16) (r : Fin 2048) (o : Fin 1024) : EReal :=
  max ((∑ h : Fin 1024, x (ix3 β r h) * W (ix2 o h)) + b (ix1 o)) 0

/-- The scores of query row t of batch β against every key row r. -/
def score (q p : A3.Idx → EReal) (W : A2.Idx → EReal) (b : A1.Idx → EReal) (β : Fin 16) (t : Fin 2048) (r : Fin 2048) : EReal :=
  ∑ d : Fin 1024, lin p W b β t d * lin q W b β r d

/-- The attention output with the normalisation deferred: the numerator-weighted sum, then one division. -/
def attnK (q p : A3.Idx → EReal) (W : A2.Idx → EReal) (b : A1.Idx → EReal) (β : Fin 16) (t : Fin 2048) (d : Fin 1024) : EReal :=
  Ideal.div (∑ r : Fin 2048, Cert.Softmax.num (score q p W b β t) r * lin q W b β r d) (Cert.Softmax.den (score q p W b β t))

/-- The attention output with every numerator normalised before the sum. -/
def attnR (q p : A3.Idx → EReal) (W : A2.Idx → EReal) (b : A1.Idx → EReal) (β : Fin 16) (t : Fin 2048) (d : Fin 1024) : EReal :=
  ∑ r : Fin 2048, Ideal.div (Cert.Softmax.num (score q p W b β t) r) (Cert.Softmax.den (score q p W b β t)) * lin q W b β r d

/-- The whole result array, in the deferred normalisation. -/
def resK (q p : A3.Idx → EReal) (W : A2.Idx → EReal) (b : A1.Idx → EReal) : A3.Idx → EReal :=
  fun i => attnK q p W b (i 0) (i 1) (i 2)

/-- The whole result array, normalised before the sum. -/
def resR (q p : A3.Idx → EReal) (W : A2.Idx → EReal) (b : A1.Idx → EReal) : A3.Idx → EReal :=
  fun i => attnR q p W b (i 0) (i 1) (i 2)

/-- An array all of whose entries are real numbers. -/
def AllReal {s : Shape} (x : s.Idx → EReal) : Prop := ∀ i, ∃ r : ℝ, x i = (r : EReal)

end Cert.Attn

end
-- ==== Proof.KernelAttn.lean ====
/-
  From the body's arithmetic to the specification.

  The body sees the weight already transposed (wt (h, o) = W (o, h)) and the bias as one row; with that, a
  projected row of a block is the specification's lin at the block's place in its array. And the attention block of a
  query tile whose projected rows are lin p, taken against keys that are lin q of the same batch, is the
  specification's attnK: the scores, the row maximum, the numerators and their sum are then the same functions.
-/
import proofs.«426007_j22471268893254_3_alg».proof.Proof.Spec
import proofs.«426007_j22471268893254_3_alg».proof.Proof.KernelPayload

noncomputable section

namespace Cert.KernelIdeal.Pay

open Cert.KernelIdeal Cert.KernelIdeal.Gen Idealize.ShloMosaic Idealize.ShloMosaic.ValueIdx Cert.Attn

/-- A projected row is lin of the array the row comes from. -/
theorem proj_eq_lin (xrow : Fin 1024 → EReal) (wt : S1024x1024.Idx → EReal) (bias : Fin 1024 → EReal)
    (X : A3.Idx → EReal) (W : A2.Idx → EReal) (b : A1.Idx → EReal) (β : Fin 16) (r : Fin 2048) (o : Fin 1024)
    (hx : ∀ h, xrow h = X (ix3 β r h)) (hw : ∀ h o, wt (ix2 h o) = W (ix2 o h)) (hb : ∀ e, bias e = b (ix1 e)) :
    proj xrow wt bias o = lin X W b β r o := by
  unfold proj lin
  rw [hb o]
  congr 2
  exact Finset.sum_congr rfl fun h _ => by rw [hx h, hw h o]

/-- The stored attention block at (t', d), for keys that are lin q and a tile whose projection is lin p. -/
theorem attn_of_keys (x2 : Vec Ideal S1024x1024 .bf16) (x3 : Vec Ideal S1x1024 .f32) (x1 : Vec Ideal S1x256x1024 .f32)
    (K : Vec Ideal S2048x1024 .bf16) (q p : A3.Idx → EReal) (W : A2.Idx → EReal) (b : A1.Idx → EReal)
    (β : Fin 16) (tt : Fin 2048) (t' : Fin 256) (d : Fin 1024)
    (hK : ∀ r e, K (ix2 r e) = lin q W b β r e)
    (hP : ∀ e, proj (fun h => x1 (ix3 (0 : Fin 1) t' h)) x2 (fun e => x3 (ix2 (0 : Fin 1) e)) e = lin p W b β tt e) :
    k0_pay5 x2 x3 x1 K (ix3 (0 : Fin 1) t' d) = attnK q p W b β tt d := by
  rw [pay5_apply]
  have hs : scoreRow (proj (fun h => x1 (ix3 (0 : Fin 1) t' h)) x2 (fun e => x3 (ix2 (0 : Fin 1) e))) K = score q p W b β tt :=
    funext fun r => by
      unfold scoreRow score
      exact Finset.sum_congr rfl fun e _ => by rw [hP e, hK r e]
  rw [hs]
  unfold attnK
  congr 1
  exact Finset.sum_congr rfl fun r _ => by rw [hK r d]

end Cert.KernelIdeal.Pay

end
-- ==== Proof.KernelValue.lean ====
/-
  The kernel's result array is the specification's, in the deferred normalisation.

  The grid is 16 batches by 8 query tiles of 256 rows, the tile index moving fastest; point t has batch t / 8
  and tile t mod 8. The q block of a point is its batch of q, the p block its tile of that batch of p; the weight
  block is the weight transposed on the host and the bias block the bias as one row, and neither moves.

  The scratch carries the projected keys lin q of the current batch: the first tile of a batch stores them, and a
  tile that is not the first has the batch of the tile before it, so what it finds is still right (induction on
  the point). Every point then leaves, as its output block, the attention of its tile against those keys: entry
  (t', d) is attnK at batch t / 8, row 256 · (t mod 8) + t', column d. That is block t of the specification's result
  array, the blocks tile the array (row r of batch β lies in point 8 β + r / 256), and so the array after the run
  is resK of the four argument arrays.
-/
import proofs.«426007_j22471268893254_3_alg».proof.Proof.Gen.KernelIdeal.Value
import proofs.«426007_j22471268893254_3_alg».proof.Proof.KernelPieces
import proofs.«426007_j22471268893254_3_alg».proof.Proof.KernelAttn
import Idealize.ShloMosaic.Lib.Pipeline.Value
import Idealize.ShloMosaic.Lib.ValueLayout
import Idealize.ShloMosaic.Lib.StableHlo.Run

set_option maxRecDepth 16384

noncomputable section

namespace Cert.KernelIdeal.AttnValue

open Cert.KernelIdeal Cert.KernelIdeal.Gen Idealize.ShloMosaic Idealize.ShloMosaic.TcCoe Idealize.ShloMosaic.ValueIdx
open Idealize.SL Idealize.SL.Sem
open Idealize.ShloMosaic.Pipeline (Dat)
open Cert.Attn

variable (m : (ℓ : Loc nD τ sig) → Buf (Elt Ideal) ℓ) (ρ : Dev nD → PrngReg)

/-- The four argument arrays on core c. -/
abbrev qarr (c : Dev nD) : A3.Idx → EReal := m ((c : Thread nD τ).loc main_arg0)
abbrev parr (c : Dev nD) : A3.Idx → EReal := m ((c : Thread nD τ).loc main_arg1)
abbrev warr (c : Dev nD) : A2.Idx → EReal := m ((c : Thread nD τ).loc main_arg2)
abbrev barr (c : Dev nD) : A1.Idx → EReal := m ((c : Thread nD τ).loc main_arg3)

/-- The printed index maps, decided over the grid: the q block follows the batch, the p and result blocks the batch and
    the tile, the weight and bias blocks never move. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0 :=
  (by decide +kernel : ∀ t : Fin grid0.N, _)

/-! ## The input blocks at a point, read off the argument arrays -/

/-- The q block at a point is the point's batch of q. -/
theorem qblk_apply (c : Dev nD) (t : Fin cfg0.N) (β : Fin 16) (hβ : β.val = t.val / 8) (r : Fin 2048) (h : Fin 1024) :
    (iblk m c 0 t : Vec Ideal S1x2048x1024 .f32) (ix3 (0 : Fin 1) r h) = qarr m c (ix3 β r h) := by
  unfold iblk
  rw [View.read_apply]
  show V m c main_arg0 _ = _
  rw [V_main_arg0]
  refine congrArg (m (c.tc.loc main_arg0)) ?_
  obtain ⟨e0, e1, e2, -⟩ := idx_facts t
  funext a
  apply Fin.ext
  match a with
  | ⟨0, _⟩ => show win0_0.index t (0 : Fin 3) * 1 + 1 * 0 = β.val; omega
  | ⟨1, _⟩ => show win0_0.index t (1 : Fin 3) * 2048 + 1 * r.val = r.val; omega
  | ⟨2, _⟩ => show win0_0.index t (2 : Fin 3) * 1024 + 1 * h.val = h.val; omega

/-- The p block at a point is tile (t mod 8) of the point's batch of p. -/
theorem pblk_apply (c : Dev nD) (t : Fin cfg0.N) (β : Fin 16) (hβ : β.val = t.val / 8) (tt : Fin 2048) (t' : Fin 256)
    (htt : tt.val = 256 * (t.val % 8) + t'.val) (h : Fin 1024) :
    (iblk m c 1 t : Vec Ideal S1x256x1024 .f32) (ix3 (0 : Fin 1) t' h) = parr m c (ix3 β tt h) := by
  unfold iblk
  rw [View.read_apply]
  show V m c main_arg1 _ = _
  rw [V_main_arg1]
  refine congrArg (m (c.tc.loc main_arg1)) ?_
  obtain ⟨-, -, -, e0, e1, e2, -⟩ := idx_facts t
  funext a
  apply Fin.ext
  match a with
  | ⟨0, _⟩ => show win0_1.index t (0 : Fin 3) * 1 + 1 * 0 = β.val; omega
  | ⟨1, _⟩ => show win0_1.index t (1 : Fin 3) * 256 + 1 * t'.val = tt.val; omega
  | ⟨2, _⟩ => show win0_1.index t (2 : Fin 3) * 1024 + 1 * h.val = h.val; omega

/-- The weight the region finds: the host has transposed it (the change of format is the identity here). -/
theorem wt_eq (c : Dev nD) : (V m c main_v1 : S1024x1024.Idx → EReal)
    = truncf (F := Ideal) .bf16 (transpose S1024x1024 [1, 0] (m ((c : Thread nD τ).loc main_arg2)) transposes_S1024x1024_S1024x1024_1_0) bitsLt_bf16_f32 := by
  dsimp only [V, hostOps0]
  after_results

/-- The bias the region finds: the host has reshaped it to one row. -/
theorem bias_eq (c : Dev nD) : (V m c main_v2 : S1x1024.Idx → EReal)
    = shapeCast S1x1024 (m ((c : Thread nD τ).loc main_arg3)) shapeCasts_S1024_S1x1024 := by
  dsimp only [V, hostOps0]
  after_results
  rfl

/-- The weight block, which never moves, at (h, o): the weight at (o, h). -/
theorem wblk_apply (c : Dev nD) (t : Fin cfg0.N) (h o : Fin 1024) :
    (iblk m c 2 t : Vec Ideal S1024x1024 .bf16) (ix2 h o) = warr m c (ix2 o h) := by
  unfold iblk
  rw [View.read_apply]
  show V m c main_v1 _ = _
  have ei : ((cfg0.win 2).blk t).view.emb (ix2 h o) = (ix2 h o : S1024x1024.Idx) := by
    obtain ⟨-, -, -, -, -, -, e0, e1, -⟩ := idx_facts t
    funext a
    apply Fin.ext
    match a with
    | ⟨0, _⟩ => show win0_2.index t (0 : Fin 2) * 1024 + 1 * h.val = h.val; omega
    | ⟨1, _⟩ => show win0_2.index t (1 : Fin 2) * 1024 + 1 * o.val = o.val; omega
  rw [ei]
  refine (congrFun (wt_eq m c) (ix2 h o)).trans ?_
  rw [truncf_apply]
  exact transpose_ix2_apply _ _ h o

/-- The bias block at (0, e): the bias at e. -/
theorem bblk_apply (c : Dev nD) (t : Fin cfg0.N) (e : Fin 1024) :
    (iblk m c 3 t : Vec Ideal S1x1024 .f32) (ix2 (0 : Fin 1) e) = barr m c (ix1 e) := by
  unfold iblk
  rw [View.read_apply]
  show V m c main_v2 _ = _
  have ei : ((cfg0.win 3).blk t).view.emb (ix2 (0 : Fin 1) e) = (ix2 (0 : Fin 1) e : S1x1024.Idx) := by
    obtain ⟨-, -, -, -, -, -, -, -, e0, e1, -⟩ := idx_facts t
    funext a
    apply Fin.ext
    match a with
    | ⟨0, _⟩ => show win0_3.index t (0 : Fin 2) * 1 + 1 * 0 = 0; omega
    | ⟨1, _⟩ => show win0_3.index t (1 : Fin 2) * 1024 + 1 * e.val = e.val; omega
  rw [ei]
  refine (congrFun (bias_eq m c) (ix2 (0 : Fin 1) e)).trans ?_
  exact shapeCast_a_1a_apply _ _ (0 : Fin 1) e

/-! ## The scratch and the output block after each point -/

/-- What case A leaves in the scratch at a point: the projected keys of the point's batch. -/
theorem soutA_lin (c : Dev nD) (t : Fin cfg0.N) (h0 : t.val % 8 = 0) (β : Fin 16) (hβ : β.val = t.val / 8) (r : Fin 2048) (o : Fin 1024) :
    (sout0_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) (ix2 r o)
      = lin (qarr m c) (warr m c) (barr m c) β r o :=
  (Pieces.soutA_apply c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t) r o).trans
    (Pay.proj_eq_lin _ _ _ (qarr m c) (warr m c) (barr m c) β r o (fun h => qblk_apply m c t β hβ r h)
      (fun h o => wblk_apply m c t h o) (fun e => bblk_apply m c t e))

/-- After every point the scratch holds the projected keys of that point's batch: stored at the batch's first tile,
    kept by the others (a tile that is not the first has the batch of the tile before it). -/
theorem keys_inv (c : Dev nD) : ∀ (n : ℕ) (hn : n < cfg0.N) (β : Fin 16), β.val = n / 8 → ∀ (r : Fin 2048) (o : Fin 1024),
    ((outsAt0 m c n hn).2 : Vec Ideal S2048x1024 .bf16) (ix2 r o) = lin (qarr m c) (warr m c) (barr m c) β r o := by
  intro n
  induction n with
  | zero =>
    intro hn β hβ r o
    have h0 : (⟨0, hn⟩ : Fin cfg0.N).val % 8 = 0 := rfl
    rw [outsAt0_A m c ⟨0, hn⟩ h0]
    dsimp only
    exact soutA_lin m c ⟨0, hn⟩ h0 β hβ r o
  | succ k ih =>
    intro hn β hβ r o
    by_cases h0 : (k + 1) % 8 = 0
    · rw [outsAt0_A m c ⟨k + 1, hn⟩ h0]
      dsimp only
      exact soutA_lin m c ⟨k + 1, hn⟩ h0 β hβ r o
    · rw [outsAt0_B m c ⟨k + 1, hn⟩ h0]
      dsimp only
      unfold sout0_B_0
      exact ih (Nat.lt_of_succ_lt hn) β (by omega) r o

/-- The output block a point leaves, at (t', d): the specification at the point's batch and row 256 · (t mod 8) + t'. -/
theorem out_apply (c : Dev nD) (t : Fin cfg0.N) (β : Fin 16) (hβ : β.val = t.val / 8) (tt : Fin 2048) (t' : Fin 256)
    (htt : tt.val = 256 * (t.val % 8) + t'.val) (d : Fin 1024) :
    ((outsAt0 m c t.val t.isLt).1 : Vec Ideal S1x256x1024 .f32) (ix3 (0 : Fin 1) t' d)
      = attnK (qarr m c) (parr m c) (warr m c) (barr m c) β tt d := by
  have hP : ∀ e, Pay.proj (fun h => (iblk m c 1 t : Vec Ideal S1x256x1024 .f32) (ix3 (0 : Fin 1) t' h)) (iblk m c 2 t)
      (fun e => (iblk m c 3 t : Vec Ideal S1x1024 .f32) (ix2 (0 : Fin 1) e)) e = lin (parr m c) (warr m c) (barr m c) β tt e :=
    fun e => Pay.proj_eq_lin _ _ _ (parr m c) (warr m c) (barr m c) β tt e (fun h => pblk_apply m c t β hβ tt t' htt h)
      (fun h o => wblk_apply m c t h o) (fun e => bblk_apply m c t e)
  by_cases h0 : t.val % 8 = 0
  · rw [outsAt0_A m c t h0]
    dsimp only
    rw [Pieces.outA_eq c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)]
    exact Pay.attn_of_keys (iblk m c 2 t) (iblk m c 3 t) (iblk m c 1 t) _ (qarr m c) (parr m c) (warr m c) (barr m c) β tt t' d
      (fun r e => soutA_lin m c t h0 β hβ r e) hP
  · have hN : t.val < 128 := lt_of_lt_of_eq t.isLt (show cfg0.N = 128 from N_0)
    rw [outsAt0_B m c t h0]
    dsimp only
    rw [Pieces.outB_eq c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)]
    exact Pay.attn_of_keys (iblk m c 2 t) (iblk m c 3 t) (iblk m c 1 t) _ (qarr m c) (parr m c) (warr m c) (barr m c) β tt t' d
      (fun r e => keys_inv m c (t.val - 1) _ β (by omega) r e) hP

/-! ## From the blocks to the array -/

/-- What a point writes back is its block of the specification's result array. -/
theorem flushed_eq (c : Dev nD) (t : Fin cfg0.N) :
    (dats m 0 c).flushed 4 t
      = ((cfg0.win 4).blk t).view.read (Elt Ideal) (resK (qarr m c) (parr m c) (warr m c) (barr m c)) := by
  rw [Cert.KernelIdeal.Value.flushed4]
  have hN : t.val < 128 := lt_of_lt_of_eq t.isLt (show cfg0.N = 128 from N_0)
  obtain ⟨-, -, -, -, -, -, -, -, -, -, e0, e1, e2⟩ := idx_facts t
  funext y
  show ((outsAt0 m c t.val t.isLt).1 : Vec Ideal S1x256x1024 .f32) y
    = resK (qarr m c) (parr m c) (warr m c) (barr m c) (((cfg0.win 4).blk t).view.emb y)
  obtain ⟨u, t', d, rfl⟩ : ∃ (u : Fin 1) (t' : Fin 256) (d : Fin 1024), y = ix3 u t' d := ⟨y 0, y 1, y 2, eq_ix3 y⟩
  obtain rfl : u = 0 := Subsingleton.elim _ _
  have ht' := t'.isLt
  rw [out_apply m c t ⟨t.val / 8, by omega⟩ rfl ⟨256 * (t.val % 8) + t'.val, by omega⟩ t' rfl d]
  have hb : (⟨t.val / 8, by omega⟩ : Fin 16) = (((cfg0.win 4).blk t).view.emb (ix3 (0 : Fin 1) t' d)) 0 :=
    Fin.ext (by show t.val / 8 = win0_4.index t (0 : Fin 3) * 1 + 1 * 0; omega)
  have hr : (⟨256 * (t.val % 8) + t'.val, by omega⟩ : Fin 2048) = (((cfg0.win 4).blk t).view.emb (ix3 (0 : Fin 1) t' d)) 1 :=
    Fin.ext (by show 256 * (t.val % 8) + t'.val = win0_4.index t (1 : Fin 3) * 256 + 1 * t'.val; omega)
  have hd : d = (((cfg0.win 4).blk t).view.emb (ix3 (0 : Fin 1) t' d)) 2 :=
    Fin.ext (by show d.val = win0_4.index t (2 : Fin 3) * 1024 + 1 * d.val; omega)
  exact congr (congr (congrArg (attnK (qarr m c) (parr m c) (warr m c) (barr m c)) hb) hr) hd

/-- An index of the result array is in point t's block iff each coordinate is in the block's range on its axis. -/
theorem mem_blk (t : Fin cfg0.N) (i : S16x2048x1024.Idx) :
    i ∈ ((cfg0.win 4).blk t).view.set
      ↔ ∀ a : Fin 3, win0_4.index t a * S1x256x1024.size a ≤ (i a).val ∧ (i a).val < win0_4.index t a * S1x256x1024.size a + S1x256x1024.size a := by
  show i ∈ ((View.whole main_v3).slice (win0_4.rect t)).set ↔ _
  rw [View.set_slice_whole, Rect.mem_set_unit]
  exact Iff.rfl

/-- Every index of the result array is in some point's block: row r of batch β belongs to point 8 β + r / 256. -/
theorem cover (i : S16x2048x1024.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 1024 := (i 2).isLt
  have hlt : 8 * (i 0).val + (i 1).val / 256 < cfg0.N := by rw [show cfg0.N = 128 from N_0]; omega
  refine ⟨⟨8 * (i 0).val + (i 1).val / 256, hlt⟩, flush0_4 _, ?_⟩
  rw [mem_blk]
  obtain ⟨-, -, -, -, -, -, -, -, -, -, e0, e1, e2⟩ := idx_facts ⟨8 * (i 0).val + (i 1).val / 256, hlt⟩
  have e0' : win0_4.index ⟨8 * (i 0).val + (i 1).val / 256, hlt⟩ (0 : Fin 3) = (8 * (i 0).val + (i 1).val / 256) / 8 := e0
  have e1' : win0_4.index ⟨8 * (i 0).val + (i 1).val / 256, hlt⟩ (1 : Fin 3) = (8 * (i 0).val + (i 1).val / 256) % 8 := e1
  intro a
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 256 ≤ (i 1).val ∧ (i 1).val < win0_4.index _ (1 : Fin 3) * 256 + 256
    omega
  | ⟨2, _⟩ =>
    show win0_4.index _ (2 : Fin 3) * 1024 ≤ (i 2).val ∧ (i 2).val < win0_4.index _ (2 : Fin 3) * 1024 + 1024
    omega

/-- So the result array ends holding the specification's result of the argument arrays. -/
theorem final (c : Dev nD) : (dats m 0 c).arrAt 4 cfg0.N = resK (qarr m c) (parr m c) (warr m c) (barr m c) :=
  (dats m 0 c).arrAt_eq_of_cover 4 (resK (qarr m c) (parr m c) (warr m c) (barr m c)) (fun t _ => flushed_eq m c t) cover

/-- The run, read: the result array at the specification's result, the arguments unchanged. -/
theorem run : θ_run defs (onTc (τ := τ) (main (F := Ideal))) ⟨m, fun _ => 0, ρ⟩ fun r => ∀ c : Dev nD,
      r.2.mem ((c : Thread nD τ).loc main_v3) = resK (qarr m c) (parr m c) (warr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.AttnValue

end
-- ==== Proof.RefValue.lean ====
/-
  The reference program computes the attention with every softmax numerator normalised before the sum.

  Read one operation at a time at an index given by its coordinates: the projections of q and p are the
  function lin, the batched product of the two projections is the score, the maximum taken over the key axis
  from minus infinity is the row maximum (a fold of max from the bottom element, and a further maximum with
  minus infinity changes nothing), the exponentials of the scores less that maximum are the numerators, their
  sum from zero is the denominator, and the last batched product sums, over the key rows r, the quotient of
  numerator r by the denominator times row r of the projection of q.
-/
import proofs.«426007_j22471268893254_3_alg».proof.Proof.Gen.ReferenceIdeal.Read
import proofs.«426007_j22471268893254_3_alg».proof.Proof.Spec
import Idealize.ShloMosaic.PureOps.Ideal.Laws
import Idealize.ShloMosaic.PureOps.Reduce
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx
  Idealize.ShloMosaic.StableHlo

/-- The f32 word with sign bit set, exponent all ones and significand zero is minus infinity, the bottom element. -/
theorem ofBits_neg_inf : Ideal.ofBits .f32 0xFF800000#32 = (⊥ : EReal) := by
  simp [Ideal.ofBits, Ideal.ieee]

variable (x0 x1 : (⟨S16x2048x1024, .f32⟩ : BufTy).Contents (Elt Ideal)) (x2 : (⟨S1024x1024, .f32⟩ : BufTy).Contents (Elt Ideal))
  (x3 : (⟨S1024, .f32⟩ : BufTy).Contents (Elt Ideal))

/-- The projection of q at (β, r, o): the product with Wᵀ, the bias added, the maximum with zero. -/
theorem lin_q (β : Fin 16) (r : Fin 2048) (o : Fin 1024) :
    val_main_v4 (F := Ideal) x0 x2 x3 (ix3 β r o) = Cert.Attn.lin x0 x2 x3 β r o := by
  have el : ∀ k : Fin 1024, lidx_main_v0 (ix3 β r o) k = ix3 β r k := fun k =>
    funext fun a => Fin.ext (by match a with | ⟨0, _⟩ => rfl | ⟨1, _⟩ => rfl | ⟨2, _⟩ => rfl)
  have er : ∀ k : Fin 1024, ridx_main_v0 (ix3 β r o) k = ix2 o k := fun k =>
    funext fun a => Fin.ext (by match a with | ⟨0, _⟩ => rfl | ⟨1, _⟩ => rfl)
  have eb : idx_main_v1 (idx_main_v2 (ix3 β r o)) = ix1 o :=
    funext fun a => Fin.ext (by match a with | ⟨0, _⟩ => rfl)
  rw [val_main_v4_apply, val_main_v3_apply, val_main_v0_apply, val_main_v2_apply, val_main_v1_apply,
    val_main_call0_v0_apply, val_main_call0_cst_apply]
  simp only [el, er, eb, Ideal.maximumf_def, Ideal.addf_def, Ideal.ofBits_def, Ideal.ofBits_zero_f32]
  rfl

/-- The projection of p at (β, t, d). -/
theorem lin_p (β : Fin 16) (t : Fin 2048) (d : Fin 1024) :
    val_main_v9 (F := Ideal) x1 x2 x3 (ix3 β t d) = Cert.Attn.lin x1 x2 x3 β t d := by
  have el : ∀ k : Fin 1024, lidx_main_v5 (ix3 β t d) k = ix3 β t k := fun k =>
    funext fun a => Fin.ext (by match a with | ⟨0, _⟩ => rfl | ⟨1, _⟩ => rfl | ⟨2, _⟩ => rfl)
  have er : ∀ k : Fin 1024, ridx_main_v5 (ix3 β t d) k = ix2 d k := fun k =>
    funext fun a => Fin.ext (by match a with | ⟨0, _⟩ => rfl | ⟨1, _⟩ => rfl)
  have eb : idx_main_v6 (idx_main_v7 (ix3 β t d)) = ix1 d :=
    funext fun a => Fin.ext (by match a with | ⟨0, _⟩ => rfl)
  rw [val_main_v9_apply, val_main_v8_apply, val_main_v5_apply, val_main_v7_apply, val_main_v6_apply,
    val_main_call1_v0_apply, val_main_call1_cst_apply]
  simp only [el, er, eb, Ideal.maximumf_def, Ideal.addf_def, Ideal.ofBits_def, Ideal.ofBits_zero_f32]
  rfl

/-- The score of query row t against key row r in batch β: the product of the two projections over the features. -/
theorem score_at (β : Fin 16) (t r : Fin 2048) :
    val_main_v10 (F := Ideal) x0 x1 x2 x3 (ix3 β t r) = Cert.Attn.score x0 x1 x2 x3 β t r := by
  have el : ∀ k : Fin 1024, lidx_main_v10 (ix3 β t r) k = ix3 β t k := fun k =>
    funext fun a => Fin.ext (by match a with | ⟨0, _⟩ => rfl | ⟨1, _⟩ => rfl | ⟨2, _⟩ => rfl)
  have er : ∀ k : Fin 1024, ridx_main_v10 (ix3 β t r) k = ix3 β r k := fun k =>
    funext fun a => Fin.ext (by match a with | ⟨0, _⟩ => rfl | ⟨1, _⟩ => rfl | ⟨2, _⟩ => rfl)
  rw [val_main_v10_apply]
  unfold Cert.Attn.score
  exact Finset.sum_congr rfl fun k _ => by rw [el, er, lin_p, lin_q]

/-- The maximum of row (β, t) of the scores over the key axis, taken from minus infinity, is the row maximum. -/
theorem rowMax_at (β : Fin 16) (t : Fin 2048) :
    val_main_v11 (F := Ideal) x0 x1 x2 x3 (ix2 β t) = Cert.Softmax.rowMax (Cert.Attn.score x0 x1 x2 x3 β t) := by
  unfold val_main_v11
  have hr : S16x2048x2048.Reduces [(2 : Fin 3)] S16x2048 := by decide
  refine (Host.reduce_eq_fold_single (α := EReal) (s := S16x2048x2048) (t := S16x2048) (a := (2 : Fin 3))
    (FloatOps.maximumf (F := Ideal) (φ := .f32)) (val_main_v10 (F := Ideal) x0 x1 x2 x3) (val_main_cst (F := Ideal))
    reducesTo_S16x2048x2048_S16x2048_d2 hr h_S_ (ix2 β t)).trans ?_
  rw [val_main_cst_apply, Ideal.ofBits_def, ofBits_neg_inf]
  unfold Cert.Softmax.rowMax
  refine Finset.fold_congr fun (k : Fin 2048) _ => ?_
  have e : hr.lift (ix2 β t) k = ix3 β t k :=
    funext fun a => Fin.ext (by match a with | ⟨0, _⟩ => rfl | ⟨1, _⟩ => rfl | ⟨2, _⟩ => rfl)
  exact (congrArg (val_main_v10 (F := Ideal) x0 x1 x2 x3) e).trans (score_at x0 x1 x2 x3 β t k)

/-- A further maximum with minus infinity leaves the row maximum as it is. -/
theorem max_at (β : Fin 16) (t : Fin 2048) :
    val_main_v13 (F := Ideal) x0 x1 x2 x3 (ix2 β t) = Cert.Softmax.rowMax (Cert.Attn.score x0 x1 x2 x3 β t) := by
  rw [val_main_v13_apply, val_main_v12_apply, val_main_cst_0_apply, rowMax_at, Ideal.maximumf_def, Ideal.ofBits_def,
    ofBits_neg_inf]
  exact max_eq_right bot_le

/-- The numerator at (β, t, r): the exponential of the score less the row maximum. -/
theorem num_at (β : Fin 16) (t r : Fin 2048) :
    val_main_v17 (F := Ideal) x0 x1 x2 x3 (ix3 β t r) = Cert.Softmax.num (Cert.Attn.score x0 x1 x2 x3 β t) r := by
  have eb : idx_main_v14 (idx_main_v15 (ix3 β t r)) = ix2 β t :=
    funext fun a => Fin.ext (by match a with | ⟨0, _⟩ => rfl | ⟨1, _⟩ => rfl)
  rw [val_main_v17_apply, val_main_v16_apply, val_main_v15_apply, val_main_v14_apply, eb, max_at, score_at,
    Ideal.hostUnary_exp_def, Ideal.subf_def]
  rfl

/-- The denominator of row (β, t): the sum of the numerators over the key axis, from zero. -/
theorem den_at (β : Fin 16) (t : Fin 2048) :
    val_main_v18 (F := Ideal) x0 x1 x2 x3 (ix2 β t) = Cert.Softmax.den (Cert.Attn.score x0 x1 x2 x3 β t) := by
  have ei : ∀ k : Fin 2048, idx_main_v18 (ix2 β t) k = ix3 β t k := fun k =>
    funext fun a => Fin.ext (by match a with | ⟨0, _⟩ => rfl | ⟨1, _⟩ => rfl | ⟨2, _⟩ => rfl)
  rw [val_main_v18_apply, val_main_cst_1_apply, Ideal.ofBits_def, Ideal.ofBits_zero_f32, zero_add]
  unfold Cert.Softmax.den
  exact Finset.sum_congr rfl fun k _ => by rw [ei, num_at]

/-- The weight at (β, t, r): the numerator divided by the row's denominator. -/
theorem weight_at (β : Fin 16) (t r : Fin 2048) :
    val_main_v21 (F := Ideal) x0 x1 x2 x3 (ix3 β t r)
      = Ideal.div (Cert.Softmax.num (Cert.Attn.score x0 x1 x2 x3 β t) r) (Cert.Softmax.den (Cert.Attn.score x0 x1 x2 x3 β t)) := by
  have eb : idx_main_v19 (idx_main_v20 (ix3 β t r)) = ix2 β t :=
    funext fun a => Fin.ext (by match a with | ⟨0, _⟩ => rfl | ⟨1, _⟩ => rfl)
  rw [val_main_v21_apply, val_main_v20_apply, val_main_v19_apply, eb, num_at, den_at, Ideal.hostDivf_def]

/-- The reference's result is the attention normalised before the sum. -/
theorem ref_eq :
    Cert.ReferenceIdeal.Read.val_main_v22 (F := Ideal) x0 x1 x2 x3 = Cert.Attn.resR x0 x1 x2 x3 := by
  funext i
  obtain ⟨β, t, d, rfl⟩ : ∃ (β : Fin 16) (t : Fin 2048) (d : Fin 1024), i = ix3 β t d := ⟨i 0, i 1, i 2, eq_ix3 i⟩
  have el : ∀ k : Fin 2048, lidx_main_v22 (ix3 β t d) k = ix3 β t k := fun k =>
    funext fun a => Fin.ext (by match a with | ⟨0, _⟩ => rfl | ⟨1, _⟩ => rfl | ⟨2, _⟩ => rfl)
  have er : ∀ k : Fin 2048, ridx_main_v22 (ix3 β t d) k = ix3 β k d := fun k =>
    funext fun a => Fin.ext (by match a with | ⟨0, _⟩ => rfl | ⟨1, _⟩ => rfl | ⟨2, _⟩ => rfl)
  rw [val_main_v22_apply]
  show _ = Cert.Attn.attnR x0 x1 x2 x3 β t d
  unfold Cert.Attn.attnR
  exact Finset.sum_congr rfl fun k _ => by rw [el, er, weight_at, lin_q]

end Cert.ReferenceIdeal.RefValue

end
-- ==== Proof.SpecLaw.lean ====
/-
  With real inputs the two normalisations of the attention agree.

  One form adds up the numerator-weighted rows and divides the sum by the softmax denominator; the other
  divides every numerator first and then adds. Over the extended reals a product does not distribute over
  a sum once an infinity is involved, so the argument is carried out among the real numbers: when every
  entry of the inputs is real, the projection (a finite sum of products of reals, plus a real, capped below
  by zero) is real, hence every score is real; for a nonempty row of real scores the row maximum is one of
  the scores, every numerator is the exponential of a real, the denominator is a nonzero real s, and the
  division by s is the product with the real 1 / s. What is left is
      (Σ e_r · v_r) · (1 / s) = Σ (e_r · (1 / s)) · v_r
  among real numbers, which is distributivity and commutativity.
-/
import proofs.«426007_j22471268893254_3_alg».proof.Proof.Spec
import Mathlib.Algebra.BigOperators.Ring.Finset
import Mathlib.Data.EReal.Operations

noncomputable section

namespace Cert.Attn

open Idealize.ShloMosaic Idealize.ShloMosaic.ValueIdx

/-- The inclusion of the reals in the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finset_sum]; exact Finset.sum_congr rfl (fun i _ => hg i)⟩

/-- The division of a numerator-weighted sum by the denominator is the sum of the divided numerators'
    products, for a nonempty row of real scores and real values. -/
theorem div_sum_eq_sum_div {n : ℕ} (hn : 0 < n) (L v : Fin n → EReal) (hL : ∀ k, ∃ r : ℝ, L k = (r : EReal))
    (hv : ∀ k, ∃ r : ℝ, v k = (r : EReal)) :
    Ideal.div (∑ r, Cert.Softmax.num L r * v r) (Cert.Softmax.den L)
      = ∑ r, Ideal.div (Cert.Softmax.num L r) (Cert.Softmax.den L) * v r := by
  choose Lr hLr using hL
  choose vr hvr using hv
  -- the row maximum is the score at some k, a real number
  obtain ⟨k, hk⟩ := Cert.Softmax.rowMax_attained hn L
  -- every numerator is the exponential of a real
  have hnum : ∀ r, Cert.Softmax.num L r = ((Real.exp (Lr r - Lr k) : ℝ) : EReal) := by
    intro r
    unfold Cert.Softmax.num
    rw [hk, hLr r, hLr k, ← EReal.coe_sub, Ideal.exp_coe]
  -- the denominator is their real sum, and it is not zero
  have hden : Cert.Softmax.den L = ((∑ r, Real.exp (Lr r - Lr k) : ℝ) : EReal) := by
    unfold Cert.Softmax.den
    rw [coe_finset_sum]
    exact Finset.sum_congr rfl (fun r _ => hnum r)
  have hs : (∑ r, Real.exp (Lr r - Lr k) : ℝ) ≠ 0 := by
    have h0 := Cert.Softmax.den_ne_zero hn L (fun j => ⟨Lr j, hLr j⟩)
    rw [hden] at h0
    exact_mod_cast h0
  -- both sides are real numbers
  have hlhs : (∑ r, Cert.Softmax.num L r * v r)
      = ((∑ r, Real.exp (Lr r - Lr k) * vr r : ℝ) : EReal) := by
    rw [coe_finset_sum]
    exact Finset.sum_congr rfl (fun r _ => by rw [hnum r, hvr r, EReal.coe_mul])
  have hrhs : ∀ r, Ideal.div (Cert.Softmax.num L r) (Cert.Softmax.den L) * v r
      = ((Real.exp (Lr r - Lr k) * (1 / ∑ j, Real.exp (Lr j - Lr k)) * vr r : ℝ) : EReal) := by
    intro r
    rw [hden, Ideal.div_coe hs, hnum r, hvr r, EReal.coe_mul, EReal.coe_mul]
  rw [Finset.sum_congr rfl (fun r _ => hrhs r), hlhs, hden, Ideal.div_coe hs, ← EReal.coe_mul, ← coe_finset_sum]
  congr 1
  rw [Finset.sum_mul]
  exact Finset.sum_congr rfl (fun r _ => by ring)

/-- With real inputs the projection is real at every position. -/
theorem lin_real {x : A3.Idx → EReal} {W : A2.Idx → EReal} {b : A1.Idx → EReal}
    (hx : AllReal x) (hW : AllReal W) (hb : AllReal b) (β : Fin 16) (r : Fin 2048) (o : Fin 1024) :
    ∃ y : ℝ, lin x W b β r o = (y : EReal) := by
  obtain ⟨s, hs⟩ := sum_real Finset.univ (fun h : Fin 1024 => x (ix3 β r h) * W (ix2 o h)) (fun h => by
    obtain ⟨a, ha⟩ := hx (ix3 β r h)
    obtain ⟨c, hc⟩ := hW (ix2 o h)
    exact ⟨a * c, by rw [ha, hc, EReal.coe_mul]⟩)
  obtain ⟨c, hc⟩ := hb (ix1 o)
  refine ⟨max (s + c) 0, ?_⟩
  unfold lin
  rw [hs, hc, ← EReal.coe_add, ← EReal.coe_zero]
  exact (EReal.coe_strictMono.monotone.map_max).symm

/-- With real inputs every score is real. -/
theorem score_real {q p : A3.Idx → EReal} {W : A2.Idx → EReal} {b : A1.Idx → EReal}
    (hq : AllReal q) (hp : AllReal p) (hW : AllReal W) (hb : AllReal b) (β : Fin 16) (t : Fin 2048) (r : Fin 2048) :
    ∃ y : ℝ, score q p W b β t r = (y : EReal) := by
  unfold score
  exact sum_real Finset.univ _ (fun d => by
    obtain ⟨a, ha⟩ := lin_real hp hW hb β t d
    obtain ⟨c, hc⟩ := lin_real hq hW hb β r d
    exact ⟨a * c, by rw [ha, hc, EReal.coe_mul]⟩)

/-- With real inputs the two normalisations give the same array. -/
theorem resK_eq_resR (q p : A3.Idx → EReal) (W : A2.Idx → EReal) (b : A1.Idx → EReal)
    (hq : AllReal q) (hp : AllReal p) (hW : AllReal W) (hb : AllReal b) : resK q p W b = resR q p W b := by
  funext i
  unfold resK resR attnK attnR
  exact div_sum_eq_sum_div (by norm_num) (score q p W b (i 0) (i 1)) (fun r => lin q W b (i 0) r (i 2))
    (score_real hq hp hW hb (i 0) (i 1)) (fun r => lin_real hq hW hb (i 0) r (i 2))

end Cert.Attn

end
-- ==== Proof.FiniteInputs.lean ====
/-
  The precondition makes every input entry a real number.

  The precondition is the conjunction, over the four argument arrays x, of "every entry of |x| is below +∞",
  each conjunct computed as a fold of `and` over the entrywise comparisons, started from the true bit. Such a
  fold is the true bit only if every comparison is; and an extended real whose absolute value max x (-x) is
  strictly below ⊤ is neither ⊤ nor ⊥ (both have absolute value ⊤), so it is the image of a real number.
-/
import proofs.«426007_j22471268893254_3_alg».proof.Pre_finite_inputs
import proofs.«426007_j22471268893254_3_alg».proof.Proof.Gen.Pre_finite_inputs
import proofs.«426007_j22471268893254_3_alg».proof.Proof.Spec
import Idealize.ShloMosaic.Lib.ReduceAll
import Idealize.ShloMosaic.Lib.ValueIdx

noncomputable section

namespace Cert.Attn

open Idealize.ShloMosaic Idealize.ShloMosaic.ValueIdx

/-- The shape with no axes has exactly one index. -/
instance subsingleton_scalarIdx : Subsingleton Cert.Pre_finite_inputs.S_.Idx :=
  ⟨fun a b => funext fun d => d.elim0⟩

/-- The 32-bit pattern with all exponent bits set and a zero mantissa denotes +∞. -/
theorem inf_word : Ideal.ofBits .f32 0x7F800000#32 = (⊤ : EReal) := by
  simp [Ideal.ofBits, Ideal.ieee]

/-- An extended real whose absolute value compares strictly below +∞ is a real number: the absolute value of
    either infinity is ⊤, and ⊤ < ⊤ fails. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_word] at h'
  induction x using EReal.rec with
  | bot => simp [Ideal.cmp] at h'
  | top => simp [Ideal.cmp] at h'
  | coe r => exact ⟨r, rfl⟩

/-- One conjunct of the precondition, for an array of any shape: if the fold of `and` over the entrywise
    comparisons |x i| < +∞ is the true bit, every entry of x is a real number. -/
theorem allReal_of_all_abs_lt {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (h : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu ix0 = 1#1) :
    AllReal x := by
  intro i
  exact real_of_abs_lt_inf (x i) (Host.reduce_andi_all _ _ hr hu ix0 h i)

open Cert.Pre_finite_inputs in
/-- The precondition's value being the true bit makes each of the four argument arrays real-valued: the value is
    the `and` of the four conjuncts, so each conjunct is the true bit. -/
theorem allReal_of_pre [Cert.Pre_finite_inputs.Facts]
    (a0 a1 : FVec Ideal Cert.Pre_finite_inputs.S16x2048x1024 .f32)
    (a2 : FVec Ideal Cert.Pre_finite_inputs.S1024x1024 .f32) (a3 : FVec Ideal Cert.Pre_finite_inputs.S1024 .f32)
    (h : Cert.Pre_finite_inputs.fn (F := Ideal) a0 a1 a2 a3 = fun _ => 1#1) :
    AllReal a0 ∧ AllReal a1 ∧ AllReal a2 ∧ AllReal a3 := by
  have h0 := congrFun h ix0
  unfold Cert.Pre_finite_inputs.fn Cert.Pre_finite_inputs.fn_part1 at h0
  dsimp only at h0
  obtain ⟨h012, h3⟩ := IntOp.andi_eq_one.1 h0
  obtain ⟨h01, h2⟩ := IntOp.andi_eq_one.1 h012
  obtain ⟨h0', h1⟩ := IntOp.andi_eq_one.1 h01
  exact ⟨allReal_of_all_abs_lt _ _ _ a0 h0', allReal_of_all_abs_lt _ _ _ a1 h1,
    allReal_of_all_abs_lt _ _ _ a2 h2, allReal_of_all_abs_lt _ _ _ a3 h3⟩

end Cert.Attn

end
-- ==== Proof.lean ====
/-
  A fused cross-attention kernel against its jnp reference, over the extended reals.

  Both programs project q and p by the same linear map with bias and ReLU (lin x = max (x · Wᵀ + b) 0), take the
  unscaled scores of every query row of lin p against every key row of lin q of the same batch, turn each row of
  scores into softmax numerators exp (s − max s) and their sum, and combine the rows of lin q with them. They differ in
  ONE step: the kernel forms the numerator-weighted sum of the key rows and divides it once by the sum of the
  numerators, the reference divides every numerator first and sums afterwards. Over the extended reals a quotient
  distributes over a sum only away from the infinities, and that is where the precondition enters: with every input
  entry a real number, lin is real, so every score is real, the row maximum is attained, every numerator is a real in
  (0, 1] and their sum a real that is at least 1 — then (Σ e_r · v_r) / s = Σ (e_r / s) · v_r.

  The kernel's side: a grid of 16 batches by 8 query tiles, the projected keys of a batch stored into a scratch at
  the batch's first tile and reused by the other seven; the result array after the run is the specification's result
  in the kernel's normalisation (KernelValue, over KernelPieces, KernelPayload, KernelAttn, KeyBands). The
  reference's side: its thirty host operations read one at a time give the specification's result in the
  reference's normalisation (RefValue). The law between the two normalisations for real inputs is SpecLaw, and that
  the precondition makes every input entry real is FiniteInputs. The three frames are the generated ones (the
  reference's is its run with the result dropped); the idealization rewrote nothing, so preserves is trivial.
-/
import proofs.«426007_j22471268893254_3_alg».proof.Defs
import proofs.«426007_j22471268893254_3_alg».proof.Proof.Gen.Kernel
import proofs.«426007_j22471268893254_3_alg».proof.Proof.Gen.Kernel.Skeleton
import proofs.«426007_j22471268893254_3_alg».proof.Proof.Gen.Kernel.Launch
import proofs.«426007_j22471268893254_3_alg».proof.Proof.Gen.Kernel.Points
import proofs.«426007_j22471268893254_3_alg».proof.Proof.Gen.Kernel.Frame
import proofs.«426007_j22471268893254_3_alg».proof.Proof.Gen.KernelIdeal
import proofs.«426007_j22471268893254_3_alg».proof.Proof.Gen.KernelIdeal.Skeleton
import proofs.«426007_j22471268893254_3_alg».proof.Proof.Gen.KernelIdeal.Launch
import proofs.«426007_j22471268893254_3_alg».proof.Proof.Gen.KernelIdeal.Points
import proofs.«426007_j22471268893254_3_alg».proof.Proof.Gen.KernelIdeal.Frame
import proofs.«426007_j22471268893254_3_alg».proof.Proof.Gen.KernelIdeal.Value
import proofs.«426007_j22471268893254_3_alg».proof.Proof.Gen.ReferenceIdeal
import proofs.«426007_j22471268893254_3_alg».proof.Proof.Gen.ReferenceIdeal.Run
import proofs.«426007_j22471268893254_3_alg».proof.Proof.Gen.ReferenceIdeal.Read
import proofs.«426007_j22471268893254_3_alg».proof.Proof.Gen.Pre_finite_inputs
import proofs.«426007_j22471268893254_3_alg».proof.Proof.KernelValue
import proofs.«426007_j22471268893254_3_alg».proof.Proof.RefValue
import proofs.«426007_j22471268893254_3_alg».proof.Proof.SpecLaw
import proofs.«426007_j22471268893254_3_alg».proof.Proof.FiniteInputs
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the kernel's normalisation of the specification, resK of the kernel's arguments:
    the kernel by its value leg; the reference at resR of its own arguments, which are the kernel's, and for real
    inputs resR is resK. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Attn.resK (Cert.KernelIdeal.AttnValue.qarr m c) (Cert.KernelIdeal.AttnValue.parr m c)
      (Cert.KernelIdeal.AttnValue.warr m c) (Cert.KernelIdeal.AttnValue.barr m c), Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq,
    (hagree c).1, (hagree c).2.1, (hagree c).2.2.1, (hagree c).2.2.2]
  obtain ⟨hq, hp, hW, hb⟩ := Cert.Attn.allReal_of_pre _ _ _ _ (hpre c)
  exact (Cert.Attn.resK_eq_resR _ _ _ _ hq hp hW hb).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
